-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096 .f32) (main_arg3 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024, .f32⟩
  | .local _ .vmem, ⟨7, _⟩ => ⟨S1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S4096.size a
  hwx0_3 : ∀ i : grid0.Coords, EltTy.bits .f32 = 32 ∨ (Rect.block (s := S4096) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Tile.lean ====
/-
  What the kernel body leaves behind at one grid point, as plain values.

  The body keeps a running tile `acc` in a scratch buffer.  At the first step of a reduction run it stores the zero
  tile and then `acc + x·(w∘f)ᵀ` over it; at the middle steps it stores `acc + x·(w∘f)ᵀ` over what the step before
  left; at the last step it does the same and then stores `acc + bias` into the output tile.  The generated frame
  names these contents as lists of stored pieces read back; here each list is read back to the one payload term
  it amounts to: a single covering store is its payload, and a store over a store is the later payload with the
  earlier one in the place of what it loaded back.
-/
import proofs.«154145_j36215164240656_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

/-- The tile-sized stores and loads of the body all start at the tile's origin. -/
theorem origin2 : (![0, 0] : Fin 2 → Nat) = fun _ => 0 := funext fun a => by fin_cases a <;> rfl

/-- The bias block's load starts at its origin. -/
theorem origin1 : (![0] : Fin 1 → Nat) = fun _ => 0 := funext fun a => by fin_cases a; rfl

/-- First step of a run: the accumulator ends at the zero tile plus this step's product. -/
theorem acc_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i) (x w f : Vec F S1024x1024 .f32) (b : Vec F S1024 .f32) :
    sout0_A_0 c i a3 h3 a4 h4 a5 h5 a6 h6 a7 h7 a8 h8 hc0 hc1 x w f b = k0_pay2 x w f (k0_pay1 (F := F)) := by
  unfold sout0_A_0
  rw [View.read_writes_eq_canon _ _ _ (scover0_A_0 c i a3 h3 a4 h4 a5 h5 a6 h6 a7 h7 a8 h8 hc0 hc1 x w f b)]
  unfold kernelRun0_A
  dsimp only
  sl_unfold_words
  rw [View.canon_cons_unit_zero (S := S1024x1024) origin2, View.readCov_unit_zero (S := S1024x1024) _ origin2]
  simp only [View.readAt_eq_ld, h3.read_unread, h4.read_unread, h5.read_unread, View.ld_unit_zero (S := S1024x1024) origin2]

/-- Middle step: the accumulator ends at what the step before left plus this step's product. -/
theorem acc_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i) (x w f : Vec F S1024x1024 .f32) (b : Vec F S1024 .f32) (acc : Vec F S1024x1024 .f32) :
    sout0_B_0 c i a3 h3 a4 h4 a5 h5 a6 h6 a7 h7 a8 h8 hc0 hc1 x w f b acc = k0_pay2 x w f acc := by
  unfold sout0_B_0
  rw [View.read_writes_eq_canon _ _ _ (scover0_B_0 c i a3 h3 a4 h4 a5 h5 a6 h6 a7 h7 a8 h8 hc0 hc1 x w f b acc)]
  unfold kernelRun0_B
  dsimp only
  sl_unfold_words
  rw [View.canon_unit_zero origin2]
  simp only [View.readAt_eq_ld, h3.read_unread, h4.read_unread, h5.read_unread, h8.read_unread, View.ld_unit_zero (S := S1024x1024) origin2]

/-- Last step: the accumulator likewise, -/
theorem acc_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x w f : Vec F S1024x1024 .f32) (b : Vec F S1024 .f32) (acc : Vec F S1024x1024 .f32) :
    sout0_C_0 c i a3 h3 a4 h4 a5 h5 a6 h6 a7 h7 a8 h8 hc0 hc1 x w f b acc = k0_pay2 x w f acc := by
  unfold sout0_C_0
  rw [View.read_writes_eq_canon _ _ _ (scover0_C_0 c i a3 h3 a4 h4 a5 h5 a6 h6 a7 h7 a8 h8 hc0 hc1 x w f b acc)]
  unfold kernelRun0_C
  dsimp only
  sl_unfold_words
  rw [View.canon_unit_zero origin2]
  simp only [View.readAt_eq_ld, h3.read_unread, h4.read_unread, h5.read_unread, h8.read_unread, View.ld_unit_zero (S := S1024x1024) origin2]

/-- and the output tile is that accumulator with the bias block added along the rows. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x w f : Vec F S1024x1024 .f32) (b : Vec F S1024 .f32) (acc : Vec F S1024x1024 .f32) :
    out0_C_4 c i a3 h3 a4 h4 a5 h5 a6 h6 a7 h7 a8 h8 hc0 hc1 x w f b acc = k0_pay3 (k0_pay2 x w f acc) b := by
  unfold out0_C_4
  rw [View.read_writes_eq_canon _ _ _ (cover0_C_4 c i a3 h3 a4 h4 a5 h5 a6 h6 a7 h7 a8 h8 hc0 hc1 x w f b acc)]
  unfold kernelRun0_C
  dsimp only
  sl_unfold_words
  rw [View.canon_unit_zero origin2]
  simp only [View.readAt_eq_ld, h3.read_unread, h4.read_unread, h5.read_unread, h6.read_unread, h8.read_unread,
    View.ld_unit_zero (S := S1024x1024) origin2, View.ld_unit_zero (S := S1024) origin1,
    View.readCov_unit_zero (S := S1024x1024) _ origin2]

end Cert.KernelIdeal.Tile

end
-- ==== Proof.TileValue.lean ====
/-
  The body's three stored values, entry by entry, over the extended reals.

    zero tile      (p, q) ↦ 0
    one step       (p, q) ↦ acc[p, q] + Σᵣ x[p, r] · (w[q, r] · f[q, r])         (r < 1024)
    the output     (p, q) ↦ s[p, q] + bias[q]

  The narrowing of the two product operands to sixteen bits is the identity on exact values, the product
  into a zero accumulator is the bare sum over the contracted axis (axis 1 of both operands), and the bias
  block, viewed as one row, is repeated down the rows.
-/
import proofs.«154145_j36215164240656_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Tile

open Cert.KernelIdeal Cert.KernelIdeal.Gen

/-- The zero tile. -/
theorem zero_tile_apply (j : S1024x1024.Idx) : k0_pay1 (F := Ideal) j = 0 := by
  unfold k0_pay1
  rw [shapeCast_self]
  exact Ideal.ofBits_zero_f32

/-! The two operands of the product at output entry `i` and contraction position: the left one is read at
    row `i 0`, the right one at row `i 1`, both at the contraction position along axis 1. -/

theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The tile product `a · bᵀ` into a zero accumulator, at entry `(p, q)`: `Σᵣ a[p, r] · b[q, r]`. -/
theorem product_apply (a b : FVec Ideal S1024x1024 .bf16) (p q : Fin 1024) :
    matmul dot_S1024x1024_S1024x1024_S1024x1024_1_1_0_0_n_n none a b (constant S1024x1024 .f32 0x00000000#32) (ix2 p q)
      = ∑ r : Fin 1024, a (ix2 p r) * b (ix2 q r) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- One accumulation step at entry `(p, q)`. -/
theorem step_apply (x w f acc : Vec Ideal S1024x1024 .f32) (p q : Fin 1024) :
    k0_pay2 x w f acc (ix2 p q) = acc (ix2 p q) + ∑ r : Fin 1024, x (ix2 p r) * (w (ix2 q r) * f (ix2 q r)) := by
  unfold k0_pay2
  rw [shapeCast_self]
  refine (addf_apply _ _ _).trans ?_
  rw [product_apply]
  rfl

/-- The bias block as one row repeated down the tile: entry `(p, q)` is `bias[q]`. -/
theorem bias_rows_apply {α : Type} (b : S1024.Idx → α) (p q : Fin 1024) :
    broadcastTo S1024x1024 (shapeCast S1x1024 b shapeCasts_S1024_S1x1024) broadcasts_S1x1024_S1024x1024 (ix2 p q) = b (ix1 q) := by
  rw [broadcastTo_apply _ broadcasts_S1x1024_S1024x1024 (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])]
  exact shapeCast_apply b shapeCasts_S1024_S1x1024 (ix2 (0 : Fin 1) q) (ix1 q) (by
    rw [Shape.rowMajor_val_one, Shape.rowMajor_val_two]
    show q.val = 0 * 1024 + q.val
    omega)

/-- The output tile at entry `(p, q)`. -/
theorem biased_apply (s : Vec Ideal S1024x1024 .f32) (b : Vec Ideal S1024 .f32) (p q : Fin 1024) :
    k0_pay3 s b (ix2 p q) = s (ix2 p q) + b (ix1 q) := by
  unfold k0_pay3
  refine (addf_apply _ _ _).trans ?_
  rw [bias_rows_apply]

end Cert.KernelIdeal.Tile

end
-- ==== Proof.BlockSum.lean ====
/-
  A sum over the 4096 positions of the contracted axis, regrouped as four consecutive blocks of 1024:
  position `k` is position `r` of block `s` with `k = 1024·s + r`.  Only commutativity and associativity of
  the addition are used, so the statement holds in any commutative additive monoid — in particular on the
  extended reals, where nothing is said about finiteness.
-/
import Mathlib.Algebra.BigOperators.Fin
import Mathlib.Algebra.BigOperators.Group.Finset.Basic

namespace Cert.BlockSum

/-- Block `s`, position `r` inside it ↦ position `1024·s + r` of the whole axis: a bijection. -/
def split : Fin 4 × Fin 1024 ≃ Fin 4096 where
  toFun x := ⟨1024 * x.1.val + x.2.val, by have := x.1.isLt; have := x.2.isLt; omega⟩
  invFun k := (⟨k.val / 1024, by have := k.isLt; omega⟩, ⟨k.val % 1024, Nat.mod_lt _ (by decide)⟩)
  left_inv x := by
    have h1 := x.1.isLt; have h2 := x.2.isLt
    refine Prod.ext (Fin.ext ?_) (Fin.ext ?_)
    · show (1024 * x.1.val + x.2.val) / 1024 = x.1.val; omega
    · show (1024 * x.1.val + x.2.val) % 1024 = x.2.val; omega
  right_inv k := by
    refine Fin.ext ?_
    show 1024 * (k.val / 1024) + k.val % 1024 = k.val
    omega

/-- The whole sum is the sum of the four block sums. -/
theorem sum_blocks {M : Type*} [AddCommMonoid M] (g : Fin 4096 → M) :
    ∑ k : Fin 4096, g k
      = ∑ s : Fin 4, ∑ r : Fin 1024, g ⟨1024 * s.val + r.val, by have := s.isLt; have := r.isLt; omega⟩ := by
  rw [← Fintype.sum_prod_type' (f := fun (s : Fin 4) (r : Fin 1024) =>
    g ⟨1024 * s.val + r.val, by have := s.isLt; have := r.isLt; omega⟩)]
  exact (Fintype.sum_equiv split _ _ (fun _ => rfl)).symm

end Cert.BlockSum
-- ==== Proof.Blocks.lean ====
/-
  Where each grid point's blocks sit in the arrays.

  The grid is 4 × 4 × 4, enumerated with the last axis fastest: point `t` works on row block `t / 16` of `x`
  and of the output, on row block `(t / 4) % 4` of weight, mask and bias (that is, column block of the output),
  and on block `t % 4` of the contracted axis.  Every block is 1024 long on each of its axes, so entry `p` of
  block `a` along an axis is entry `1024·a + p` of the array along that axis.
-/
import proofs.«154145_j36215164240656_1_alg».proof.Proof.Gen.KernelIdeal.Frame
import proofs.«154145_j36215164240656_1_alg».proof.Proof.BlockSum
import Idealize.ShloMosaic.Lib.ValueIdx

noncomputable section

open Idealize.ShloMosaic Idealize.ShloMosaic.TcCoe Idealize.SL.Sem Idealize.ShloMosaic.ValueIdx

namespace Cert.KernelIdeal.Tile

open Cert.KernelIdeal Cert.KernelIdeal.Gen

variable {F : FTy → Type} [FloatOps F]
variable (m : (ℓ : Loc nD τ sig) → Buf (Elt F) ℓ)

/-- The four input blocks at a point, and the four argument arrays, at their literal types. -/
abbrev xblk (c : Dev nD) (t : Fin cfg0.N) : Vec F S1024x1024 .f32 := iblk m c 0 t
abbrev wblk (c : Dev nD) (t : Fin cfg0.N) : Vec F S1024x1024 .f32 := iblk m c 1 t
abbrev fblk (c : Dev nD) (t : Fin cfg0.N) : Vec F S1024x1024 .f32 := iblk m c 2 t
abbrev bblk (c : Dev nD) (t : Fin cfg0.N) : Vec F S1024 .f32 := iblk m c 3 t
abbrev xarr (c : Dev nD) : Vec F S4096x4096 .f32 := V m c main_arg0
abbrev warr (c : Dev nD) : Vec F S4096x4096 .f32 := V m c main_arg1
abbrev farr (c : Dev nD) : Vec F S4096x4096 .f32 := V m c main_arg3
abbrev barr (c : Dev nD) : Vec F S4096 .f32 := V m c main_arg2

theorem points_lt (t : Fin cfg0.N) : t.val < 64 := lt_of_lt_of_eq t.isLt (show cfg0.N = 64 from N_0)

/-- The row block of the output, its column block, and the block of the contracted axis at point `t`. -/
def rowBlk (t : Fin cfg0.N) : Fin 4 := ⟨t.val / 16, by have := points_lt t; omega⟩
def colBlk (t : Fin cfg0.N) : Fin 4 := ⟨t.val / 4 % 4, Nat.mod_lt _ (by decide)⟩
def redBlk (t : Fin cfg0.N) : Fin 4 := ⟨t.val % 4, Nat.mod_lt _ (by decide)⟩

/-- Entry `p` of block `a` along an axis of length 4096. -/
abbrev entry (a : Fin 4) (p : Fin 1024) : Fin 4096 := Cert.BlockSum.split (a, p)

/-- The windows' block indices at every point, decided over the grid. -/
theorem where_blocks : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 4 % 4 ∧ win0_2.index t (1 : Fin 2) = t.val % 4
    ∧ win0_3.index t (0 : Fin 1) = t.val / 4 % 4
    ∧ win0_4.index t (0 : Fin 2) = t.val / 16 ∧ win0_4.index t (1 : Fin 2) = t.val / 4 % 4 :=
  (by decide +kernel : ∀ t : Fin grid0.N, _)

/-- The `x` block: rows of the output's row block, columns of the contracted block. -/
theorem xblk_apply (c : Dev nD) (t : Fin cfg0.N) (p r : Fin 1024) :
    xblk m c t (ix2 p r) = xarr m c (ix2 (entry (rowBlk t) p) (entry (redBlk t) r)) := by
  obtain ⟨e0, e1, -⟩ := where_blocks t
  show iblk m c 0 t (ix2 p r) = _
  unfold iblk
  rw [View.read_apply]
  show V m c main_arg0 _ = V m c main_arg0 _
  congr 1
  funext a
  apply Fin.ext
  match a with
  | ⟨0, _⟩ => show win0_0.index t (0 : Fin 2) * 1024 + 1 * p.val = 1024 * (t.val / 16) + p.val; rw [e0]; omega
  | ⟨1, _⟩ => show win0_0.index t (1 : Fin 2) * 1024 + 1 * r.val = 1024 * (t.val % 4) + r.val; rw [e1]; omega

/-- The weight block: rows of the output's column block, columns of the contracted block. -/
theorem wblk_apply (c : Dev nD) (t : Fin cfg0.N) (q r : Fin 1024) :
    wblk m c t (ix2 q r) = warr m c (ix2 (entry (colBlk t) q) (entry (redBlk t) r)) := by
  obtain ⟨-, -, e0, e1, -⟩ := where_blocks t
  show iblk m c 1 t (ix2 q r) = _
  unfold iblk
  rw [View.read_apply]
  show V m c main_arg1 _ = V m c main_arg1 _
  congr 1
  funext a
  apply Fin.ext
  match a with
  | ⟨0, _⟩ => show win0_1.index t (0 : Fin 2) * 1024 + 1 * q.val = 1024 * (t.val / 4 % 4) + q.val; rw [e0]; omega
  | ⟨1, _⟩ => show win0_1.index t (1 : Fin 2) * 1024 + 1 * r.val = 1024 * (t.val % 4) + r.val; rw [e1]; omega

/-- The mask block sits where the weight block does. -/
theorem fblk_apply (c : Dev nD) (t : Fin cfg0.N) (q r : Fin 1024) :
    fblk m c t (ix2 q r) = farr m c (ix2 (entry (colBlk t) q) (entry (redBlk t) r)) := by
  obtain ⟨-, -, -, -, e0, e1, -⟩ := where_blocks t
  show iblk m c 2 t (ix2 q r) = _
  unfold iblk
  rw [View.read_apply]
  show V m c main_arg3 _ = V m c main_arg3 _
  congr 1
  funext a
  apply Fin.ext
  match a with
  | ⟨0, _⟩ => show win0_2.index t (0 : Fin 2) * 1024 + 1 * q.val = 1024 * (t.val / 4 % 4) + q.val; rw [e0]; omega
  | ⟨1, _⟩ => show win0_2.index t (1 : Fin 2) * 1024 + 1 * r.val = 1024 * (t.val % 4) + r.val; rw [e1]; omega

/-- The bias block: the output's column block. -/
theorem bblk_apply (c : Dev nD) (t : Fin cfg0.N) (q : Fin 1024) :
    bblk m c t (ix1 q) = barr m c (ix1 (entry (colBlk t) q)) := by
  obtain ⟨-, -, -, -, -, -, e0, -⟩ := where_blocks t
  show iblk m c 3 t (ix1 q) = _
  unfold iblk
  rw [View.read_apply]
  show V m c main_arg2 _ = V m c main_arg2 _
  congr 1
  funext a
  apply Fin.ext
  match a with
  | ⟨0, _⟩ => show win0_3.index t (0 : Fin 1) * 1024 + 1 * q.val = 1024 * (t.val / 4 % 4) + q.val; rw [e0]; omega

end Cert.KernelIdeal.Tile

end
-- ==== Proof.Spec.lean ====
/-
  The function both programs compute, stated once over the whole arrays:

      y[b, o] = Σₖ x[b, k] · (w[o, k] · f[o, k]) + bias[o]        (b, o, k < 4096)

  a linear layer whose weight matrix is masked entry by entry by `f` before the product, over the extended
  reals.  The product inside the sum is written `x · (w · f)`, the order in which both programs multiply.
-/
import Idealize.ShloMosaic.PureOps.Ideal
import Idealize.ShloMosaic.Lib.ValueIdx

noncomputable section

namespace Cert.MaskedLinear

open Idealize.ShloMosaic Idealize.ShloMosaic.ValueIdx

/-- The square arrays (input, weight, mask, output) and the bias vector. -/
abbrev Sq : Shape := ⟨2, ![4096, 4096]⟩
abbrev Vc : Shape := ⟨1, ![4096]⟩

/-- The masked linear layer at output index `(b, o)`. -/
def out (x w f : FVec Ideal Sq .f32) (bias : FVec Ideal Vc .f32) : FVec Ideal Sq .f32 :=
  fun i => (∑ k : Fin 4096, x (ix2 (i 0) k) * (w (ix2 (i 1) k) * f (ix2 (i 1) k))) + bias (ix1 (i 1))

theorem out_apply (x w f : FVec Ideal Sq .f32) (bias : FVec Ideal Vc .f32) (b o : Fin 4096) :
    out x w f bias (ix2 b o) = (∑ k : Fin 4096, x (ix2 b k) * (w (ix2 o k) * f (ix2 o k))) + bias (ix1 o) := rfl

end Cert.MaskedLinear

end
-- ==== Proof.Run4.lean ====
/-
  The accumulator over one reduction run, and the output tile written at the run's last step.

  A run is four consecutive grid points `4u, 4u+1, 4u+2, 4u+3` (the contracted axis moves fastest).  The first
  step resets the accumulator to zero and adds its block product, each later step adds its own, so after the
  last step entry `(p, q)` of the accumulator is `0 + Σₛ Σᵣ x[p, 1024·s + r] · (w[q, 1024·s + r] · f[q, 1024·s + r])`
  over the four blocks `s` of the contracted axis — which is the whole sum over the axis, regrouped — and the
  output tile adds the bias entry of its column.  Rows and columns here are those of the run's output tile in
  the full arrays.
-/
import proofs.«154145_j36215164240656_1_alg».proof.Proof.Gen.KernelIdeal.Value
import proofs.«154145_j36215164240656_1_alg».proof.Proof.Tile
import proofs.«154145_j36215164240656_1_alg».proof.Proof.TileValue
import proofs.«154145_j36215164240656_1_alg».proof.Proof.Blocks
import proofs.«154145_j36215164240656_1_alg».proof.Proof.Spec

noncomputable section

open Idealize.ShloMosaic Idealize.ShloMosaic.TcCoe Idealize.SL.Sem Idealize.ShloMosaic.ValueIdx

namespace Cert.KernelIdeal.Tile

open Cert.KernelIdeal Cert.KernelIdeal.Gen

section AnyValues

variable {F : FTy → Type} [FloatOps F]
variable (m : (ℓ : Loc nD τ sig) → Buf (Elt F) ℓ)

/-- At the first point of a run the accumulator is reset: zero tile plus the point's product, whatever it held. -/
theorem scratch_first (c : Dev nD) (n : ℕ) (hb : n < cfg0.N) (h0 : n % 4 = 0) (acc : Vec F S1024x1024 .f32) :
    Value.scAt0_0 m c n hb acc = k0_pay2 (xblk m c (⟨n, hb⟩ : Fin cfg0.N)) (wblk m c (⟨n, hb⟩ : Fin cfg0.N)) (fblk m c (⟨n, hb⟩ : Fin cfg0.N)) (k0_pay1 (F := F)) := by
  have h1 : ¬n % 4 = 3 := by omega
  unfold Value.scAt0_0
  rw [dif_pos h0, dif_neg h1]
  exact acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- At every other point it grows by the point's product. -/
theorem scratch_later (c : Dev nD) (n : ℕ) (hb : n < cfg0.N) (h0 : ¬n % 4 = 0) (acc : Vec F S1024x1024 .f32) :
    Value.scAt0_0 m c n hb acc = k0_pay2 (xblk m c (⟨n, hb⟩ : Fin cfg0.N)) (wblk m c (⟨n, hb⟩ : Fin cfg0.N)) (fblk m c (⟨n, hb⟩ : Fin cfg0.N)) acc := by
  unfold Value.scAt0_0
  by_cases h1 : n % 4 = 3
  · rw [dif_neg h0, dif_pos h1]
    exact acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
  · rw [dif_neg h0, dif_neg h1]
    exact acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- At the last point of a run the output tile is the accumulator the point leaves, plus the bias block along the rows. -/
theorem out_tile_eq (c : Dev nD) (t : Fin cfg0.N) (h3 : t.val % 4 = 3) :
    (outsAt0 m c t.val t.isLt).1 = k0_pay3 (outsAt0 m c t.val t.isLt).2 (bblk m c t) := by
  have h0 : ¬t.val % 4 = 0 := by omega
  rw [outsAt0_C m c t h0 h3]
  dsimp only
  rw [out_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _, acc_last c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _]

end AnyValues

section Exact

variable (m : (ℓ : Loc nD τ sig) → Buf (Elt Ideal) ℓ)

/-- The block product point `n` adds, entry by entry (zero past the grid, where nothing asks). -/
def addend (c : Dev nD) (n : ℕ) : S1024x1024.Idx → EReal := fun i =>
  if h : n < cfg0.N then
    ∑ r : Fin 1024, xblk m c ⟨n, h⟩ (ix2 (i 0) r) * (wblk m c ⟨n, h⟩ (ix2 (i 1) r) * fblk m c ⟨n, h⟩ (ix2 (i 1) r))
  else 0

/-- After the last point of a run the accumulator holds zero plus the four points' block products. -/
theorem scratch_after (c : Dev nD) (t : Fin cfg0.N) (h3 : t.val % 4 = 3) (i : S1024x1024.Idx) :
    (outsAt0 m c t.val t.isLt).2 i = 0 + ∑ s ∈ Finset.range 4, addend m c (4 * (t.val / 4) + s) i := by
  rw [Value.soutsAt0_0_eq m c t]
  refine (Pipeline.accAt_add_apply (β := EReal) _ _ (fun _ => (0 : EReal)) (addend m c) (4 * (t.val / 4)) 3 ?_ ?_
    (t.val % 4) (by omega) _ i).trans ?_
  · intro h j
    rw [scratch_first m c _ h (by omega)]
    obtain ⟨p, q, rfl⟩ : ∃ (p q : Fin 1024), j = ix2 p q := ⟨j 0, j 1, eq_ix2 j⟩
    rw [step_apply, zero_tile_apply]
    unfold addend
    rw [dif_pos h]
  · intro n h acc j hlt hle
    rw [scratch_later m c n h (by omega) acc]
    obtain ⟨p, q, rfl⟩ : ∃ (p q : Fin 1024), j = ix2 p q := ⟨j 0, j 1, eq_ix2 j⟩
    rw [step_apply]
    unfold addend
    rw [dif_pos h]
  · rw [h3]

/-- The masked linear layer of the four argument arrays as the kernel finds them. -/
abbrev layer (c : Dev nD) : Vec Ideal S4096x4096 .f32 :=
  Cert.MaskedLinear.out (xarr m c) (warr m c) (farr m c) (barr m c)

/-- THE OUTPUT TILE a run writes: entry `j` is the layer at row `j 0` of the run's row block and column `j 1` of its
    column block. -/
theorem out_tile_apply (c : Dev nD) (t : Fin cfg0.N) (h3 : t.val % 4 = 3) (j : S1024x1024.Idx) :
    (outsAt0 m c t.val t.isLt).1 j = layer m c (ix2 (entry (rowBlk t) (j 0)) (entry (colBlk t) (j 1))) := by
  obtain ⟨p, q, rfl⟩ : ∃ (p q : Fin 1024), j = ix2 p q := ⟨j 0, j 1, eq_ix2 j⟩
  have hN : cfg0.N = 64 := N_0
  have ht := points_lt t
  rw [out_tile_eq m c t h3, biased_apply, scratch_after m c t h3, bblk_apply]
  show _ = Cert.MaskedLinear.out (xarr m c) (warr m c) (farr m c) (barr m c) (ix2 (entry (rowBlk t) p) (entry (colBlk t) q))
  rw [Cert.MaskedLinear.out_apply, Cert.BlockSum.sum_blocks, zero_add, Finset.sum_range]
  congr 1
  refine Finset.sum_congr rfl fun s _ => ?_
  have hs := s.isLt
  have hn : 4 * (t.val / 4) + s.val < cfg0.N := by omega
  unfold addend
  rw [dif_pos hn]
  refine Finset.sum_congr rfl fun r _ => ?_
  rw [xblk_apply, wblk_apply, fblk_apply]
  have e1 : rowBlk ⟨4 * (t.val / 4) + s.val, hn⟩ = rowBlk t :=
    Fin.ext (by show (4 * (t.val / 4) + s.val) / 16 = t.val / 16; omega)
  have e2 : colBlk ⟨4 * (t.val / 4) + s.val, hn⟩ = colBlk t :=
    Fin.ext (by show (4 * (t.val / 4) + s.val) / 4 % 4 = t.val / 4 % 4; omega)
  have e3 : redBlk ⟨4 * (t.val / 4) + s.val, hn⟩ = s :=
    Fin.ext (by show (4 * (t.val / 4) + s.val) % 4 = s.val; omega)
  rw [e1, e2, e3]
  rfl

end Exact

end Cert.KernelIdeal.Tile

end
-- ==== Proof.WholeArray.lean ====
/-
  From tiles to the array.  The output is written back only at the last point of each reduction run, one
  1024 × 1024 tile per run, and the sixteen tiles tile the 4096 × 4096 result: entry `(b, o)` lies in the tile
  of row block `b / 1024` and column block `o / 1024`, written by the run `u = 4·(b / 1024) + o / 1024` at its
  last point `4u + 3`.  Each written tile is that tile of the masked linear layer, so the result array ends
  holding the layer of the argument arrays.
-/
import proofs.«154145_j36215164240656_1_alg».proof.Proof.Run4
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen

variable (m : (ℓ : Loc nD τ sig) → Buf (Elt Ideal) ℓ) (ρ : Dev nD → PrngReg)

/-- What a run's last point writes back is its tile of the layer. -/
theorem written_eq (c : Dev nD) (t : Fin cfg0.N) (hf : (cfg0.win 4).flush t = true) :
    (dats m 0 c).flushed 4 t = ((cfg0.win 4).blk t).view.read (Elt Ideal) (layer m c) := by
  have h3 : t.val % 4 = 3 := (flush0_4 t).mp hf
  obtain ⟨-, -, -, -, -, -, -, e0, e1⟩ := where_blocks t
  rw [Value.flushed4]
  funext y
  show (outsAt0 m c t.val t.isLt).1 y = layer m c (((cfg0.win 4).blk t).view.emb y)
  refine (out_tile_apply m c t h3 y).trans ?_
  congr 1
  funext a
  apply Fin.ext
  match a with
  | ⟨0, _⟩ => show 1024 * (t.val / 16) + (y 0).val = win0_4.index t (0 : Fin 2) * 1024 + 1 * (y 0).val; rw [e0]; omega
  | ⟨1, _⟩ => show 1024 * (t.val / 4 % 4) + (y 1).val = win0_4.index t (1 : Fin 2) * 1024 + 1 * (y 1).val; rw [e1]; omega

/-- An entry of the result is in point `t`'s tile iff each coordinate is within the tile's 1024 along its axis. -/
theorem mem_tile (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v0).slice (win0_4.rect t)).set ↔ _
  rw [View.set_slice_whole, Rect.mem_set_unit]
  exact Iff.rfl

/-- Every entry of the result is in the tile some run writes. -/
theorem tiles_cover (i : S4096x4096.Idx) :
    ∃ t : Fin cfg0.N, (cfg0.win 4).flush t = true ∧ i ∈ ((cfg0.win 4).blk t).view.set := by
  have h0 : (i 0).val < 4096 := (i 0).isLt
  have h1 : (i 1).val < 4096 := (i 1).isLt
  have hN : cfg0.N = 64 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, -, e0, e1⟩ := where_blocks t
  refine ⟨t, (flush0_4 t).mpr (by omega), ?_⟩
  rw [mem_tile]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 1024 ≤ (i 1).val ∧ (i 1).val < win0_4.index t (1 : Fin 2) * 1024 + 1024; rw [e1]; omega

/-- The result array after the run is the layer of the argument arrays. -/
theorem result_eq (c : Dev nD) : (dats m 0 c).arrAt 4 cfg0.N = layer m c :=
  (dats m 0 c).arrAt_eq_of_cover 4 (layer m c) (written_eq m c) tiles_cover

/-- The kernel's run: it terminates with the result at the layer of its arguments and the arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩) (Value.run_blocks m ρ)

end Cert.KernelIdeal.Tile

end
-- ==== Proof.RefLayer.lean ====
/-
  The reference program's result is the masked linear layer of its arguments: its five host operations — the
  entrywise product of weight and mask, the contraction of `x` with it along axis 1 of both, the bias laid out
  as a row and repeated down the rows, the final addition — read at an output index give exactly the
  specification's expression, sum and factors in the same order.
-/
import proofs.«154145_j36215164240656_1_alg».proof.Proof.Gen.ReferenceIdeal.Read
import proofs.«154145_j36215164240656_1_alg».proof.Proof.Spec

noncomputable section

open Idealize.ShloMosaic Idealize.ShloMosaic.TcCoe Idealize.SL.Sem Idealize.ShloMosaic.ValueIdx

namespace Cert.ReferenceIdeal.AsLayer

open Cert.ReferenceIdeal Cert.ReferenceIdeal.Gen Cert.ReferenceIdeal.Read

/-- `einsum('bi,oi->bo', x, weight * myFilter) + bias` is the masked linear layer. -/
theorem result_eq (x w : FVec Ideal S4096x4096 .f32) (bias : FVec Ideal S4096 .f32) (f : FVec Ideal S4096x4096 .f32) :
    val_main_v4 (F := Ideal) x w bias f = Cert.MaskedLinear.out x w f bias := by
  funext i
  have el : ∀ k : Fin 4096, lidx_main_v1 i k = ix2 (i 0) k := fun k => funext fun a => Fin.ext (by
    match a with
    | ⟨0, _⟩ => rfl
    | ⟨1, _⟩ => rfl)
  have er : ∀ k : Fin 4096, ridx_main_v1 i k = ix2 (i 1) k := fun k => funext fun a => Fin.ext (by
    match a with
    | ⟨0, _⟩ => rfl
    | ⟨1, _⟩ => rfl)
  have eb : idx_main_v2 (idx_main_v3 i) = ix1 (i 1) := funext fun a => Fin.ext (by
    match a with
    | ⟨0, _⟩ => rfl)
  rw [val_main_v4_apply, val_main_v1_apply, val_main_v3_apply, val_main_v2_apply, eb]
  simp only [el, er, val_main_v0_apply]
  rfl

end Cert.ReferenceIdeal.AsLayer

end
-- ==== Proof.lean ====
/-
  A linear layer with an entrywise-masked weight, `y = x · (W ∘ F)ᵀ + bias` over 4096 × 4096 arrays, computed by a
  kernel that tiles the output 4 × 4 and the contracted axis into four blocks, against the plain formula.

  Over the extended reals the kernel's result at `(b, o)` is `(((0 + S₀) + S₁) + S₂) + S₃ + bias[o]`, where `Sₛ` is
  the partial sum `Σᵣ x[b, 1024·s + r] · (W[o, 1024·s + r] · F[o, 1024·s + r])` of block `s` of the contracted axis,
  accumulated in a tile that is reset at the first block and read out, with the bias added, at the last; the
  reference's is `Σₖ x[b, k] · (W[o, k] · F[o, k]) + bias[o]`.  Narrowing the factors to sixteen bits before the
  product changes nothing on exact values, and the four partial sums regroup the whole sum using only that
  addition is commutative and associative and that zero is neutral — laws that hold at the infinities too, so
  the finiteness of the inputs is never used.  Both programs' results are therefore one function of the
  arguments, `Cert.MaskedLinear.out`.

  The three programs terminate without fault and leave their arguments unchanged: the two kernels by their
  frames, the reference by its run.  The idealization rewrote nothing, so there is nothing to preserve.
-/
import proofs.«154145_j36215164240656_1_alg».proof.Defs
import proofs.«154145_j36215164240656_1_alg».proof.Proof.Gen.Kernel
import proofs.«154145_j36215164240656_1_alg».proof.Proof.Gen.Kernel.Skeleton
import proofs.«154145_j36215164240656_1_alg».proof.Proof.Gen.Kernel.Launch
import proofs.«154145_j36215164240656_1_alg».proof.Proof.Gen.Kernel.Points
import proofs.«154145_j36215164240656_1_alg».proof.Proof.Gen.Kernel.Frame
import proofs.«154145_j36215164240656_1_alg».proof.Proof.Gen.KernelIdeal
import proofs.«154145_j36215164240656_1_alg».proof.Proof.Gen.KernelIdeal.Skeleton
import proofs.«154145_j36215164240656_1_alg».proof.Proof.Gen.KernelIdeal.Launch
import proofs.«154145_j36215164240656_1_alg».proof.Proof.Gen.KernelIdeal.Points
import proofs.«154145_j36215164240656_1_alg».proof.Proof.Gen.KernelIdeal.Frame
import proofs.«154145_j36215164240656_1_alg».proof.Proof.Gen.ReferenceIdeal
import proofs.«154145_j36215164240656_1_alg».proof.Proof.Gen.Pre_finite_inputs
import proofs.«154145_j36215164240656_1_alg».proof.Proof.Gen.KernelIdeal.Value
import proofs.«154145_j36215164240656_1_alg».proof.Proof.Gen.ReferenceIdeal.Run
import proofs.«154145_j36215164240656_1_alg».proof.Proof.Gen.ReferenceIdeal.Read
import proofs.«154145_j36215164240656_1_alg».proof.Proof.WholeArray
import proofs.«154145_j36215164240656_1_alg».proof.Proof.RefLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the masked linear layer of arguments that agree. -/
theorem algebraic : Cert.algebraic_KernelIdeal_ReferenceIdeal := by
  intro m ρ m' ρ' _ hagree
  refine ⟨fun c => Cert.KernelIdeal.Tile.layer m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.AsLayer.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
